-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1 : Shape := ⟨2, ![16384, 1]⟩
abbrev S16384 : Shape := ⟨1, ![16384]⟩
abbrev S_ : Shape := ⟨0, ![]⟩

class Facts : Prop where
  bcast_S_S16384x1 : S_.BroadcastsInDim S16384x1 (![] : Fin 0 → Fin S16384x1.rank)
  reducesTo_S16384x1_S_d0_1 : S16384x1.ReducesTo [0, 1] S_
  h_S_ : 0 < S_.numel
  bcast_S_S16384 : S_.BroadcastsInDim S16384 (![] : Fin 0 → Fin S16384.rank)
  reducesTo_S16384_S_d0 : S16384.ReducesTo [0] S_

variable [Facts]

def fn {F : FTy → Type} [FloatOps F] (main_arg0 : FVec F S16384x1 .f32) (main_arg1 : FVec F S16384 .f32) (main_arg2 : FVec F S16384 .f32) : IVec S_ 1 :=
  let main_v0 : FVec F S16384x1 .f32 := Host.absf main_arg0
  let main_cst : FVec F S_ .f32 := constant S_ .f32 0x7F800000#32
  let main_v1 : FVec F S16384x1 .f32 := broadcastInDim S16384x1 ![] bcast_S_S16384x1 main_cst
  let main_v2 : IVec S16384x1 1 := cmpf .olt main_v0 main_v1
  let main_c : IVec S_ 1 := constantI S_ 1 1#1
  let main_v3 : IVec S_ 1 := (fun x v => Host.reduce IntOp.andi x v reducesTo_S16384x1_S_d0_1 h_S_) main_v2 main_c
  let main_v4 : FVec F S16384 .f32 := Host.absf main_arg1
  let main_cst_0 : FVec F S_ .f32 := constant S_ .f32 0x7F800000#32
  let main_v5 : FVec F S16384 .f32 := broadcastInDim S16384 ![] bcast_S_S16384 main_cst_0
  let main_v6 : IVec S16384 1 := cmpf .olt main_v4 main_v5
  let main_c_1 : IVec S_ 1 := constantI S_ 1 1#1
  let main_v7 : IVec S_ 1 := (fun x v => Host.reduce IntOp.andi x v reducesTo_S16384_S_d0 h_S_) main_v6 main_c_1
  let main_v8 : IVec S_ 1 := andi main_v3 main_v7
  let main_v9 : FVec F S16384 .f32 := Host.absf main_arg2
  let main_cst_2 : FVec F S_ .f32 := constant S_ .f32 0x7F800000#32
  let main_v10 : FVec F S16384 .f32 := broadcastInDim S16384 ![] bcast_S_S16384 main_cst_2
  let main_v11 : IVec S16384 1 := cmpf .olt main_v9 main_v10
  let main_c_3 : IVec S_ 1 := constantI S_ 1 1#1
  let main_v12 : IVec S_ 1 := (fun x v => Host.reduce IntOp.andi x v reducesTo_S16384_S_d0 h_S_) main_v11 main_c_3
  let main_v13 : IVec S_ 1 := andi main_v8 main_v12
  main_v13
-- ==== Kernel.lean ====
abbrev S16384x1 : Shape := ⟨2, ![16384, 1]⟩
abbrev S16384 : Shape := ⟨1, ![16384]⟩
abbrev S1x16384 : Shape := ⟨2, ![1, 16384]⟩
abbrev S1x128 : Shape := ⟨2, ![1, 128]⟩
abbrev S16384x128 : Shape := ⟨2, ![16384, 128]⟩
abbrev S128 : Shape := ⟨1, ![128]⟩
abbrev S_ : Shape := ⟨0, ![]⟩

abbrev nBuf : Space → Nat
  | .hbm => 17
  | .vmem => 6
  | .smem => 0
  | _ => 0

abbrev bufTy : (tb : Table) → Fin (tcTables nBuf tb) → BufTy
  | .hbm, ⟨0, _⟩ => ⟨S16384x1, .f32⟩
  | .hbm, ⟨1, _⟩ => ⟨S16384, .f32⟩
  | .hbm, ⟨2, _⟩ => ⟨S16384, .f32⟩
  | .hbm, ⟨3, _⟩ => ⟨S16384x1, .f32⟩
  | .hbm, ⟨4, _⟩ => ⟨S1x16384, .f32⟩
  | .hbm, ⟨5, _⟩ => ⟨S1x16384, .f32⟩
  | .hbm, ⟨6, _⟩ => ⟨S16384x1, .f32⟩
  | .hbm, ⟨7, _⟩ => ⟨S16384x1, .f32⟩
  | .hbm, ⟨8, _⟩ => ⟨S_, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .local _ .vmem, ⟨0, _⟩ => ⟨S16384x1, .f32⟩
  | .local _ .vmem, ⟨1, _⟩ => ⟨S16384x1, .f32⟩
  | .local _ .vmem, ⟨2, _⟩ => ⟨S1x128, .f32⟩
  | .local _ .vmem, ⟨3, _⟩ => ⟨S1x128, .f32⟩
  | .local _ .vmem, ⟨4, _⟩ => ⟨S1x128, .f32⟩
  | .local _ .vmem, ⟨5, _⟩ => ⟨S1x128, .f32⟩
  | _, _ => ⟨S16384x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S16384x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S16384x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S16384_S16384x1 : S16384.ShapeCasts S16384x1
  shapeCasts_S16384_S1x16384 : S16384.ShapeCasts S1x16384
  inb_S16384x1_S16384x1_0_0 : ∀ a, (![0, 0] : Fin 2 → Nat) a + S16384x1.size a ≤ S16384x1.size a
  h_S16384x1 : 0 < S16384x1.numel
  shapeCasts_S16384x1_S16384x1 : S16384x1.ShapeCasts S16384x1
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S16384x1_S16384x128 : S16384x1.Broadcasts S16384x128
  broadcasts_S1x128_S16384x128 : S1x128.Broadcasts S16384x128
  natLt_1_32 : 1 < 32
  reduces_S16384x128_S128 : S16384x128.Reduces [0] S128
  shapeCasts_S128_S1x128 : S128.ShapeCasts S1x128
  shapeCasts_S1x16384_S16384x1 : S1x16384.ShapeCasts S16384x1
  reducesTo_S16384x1_S_d0_1 : S16384x1.ReducesTo [0, 1] S_
  h_S_ : 0 < S_.numel
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S16384x1.size a ≤ S16384x1.size a
  hwx0_0 : ∀ i : grid0.Coords, EltTy.bits .f32 = 32 ∨ (Rect.block (s := S16384x1) S16384x1.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16384x1.size a ≤ S16384x1.size a
  hwx0_1 : ∀ i : grid0.Coords, EltTy.bits .f32 = 32 ∨ (Rect.block (s := S16384x1) S16384x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x16384.size a
  hwx0_2 : ∀ i : grid0.Coords, EltTy.bits .f32 = 32 ∨ (Rect.block (s := S1x16384) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x16384.size a
  hwx0_3 : ∀ i : grid0.Coords, EltTy.bits .f32 = 32 ∨ (Rect.block (s := S1x16384) S1x128.size (cc0_transform_3 i) (hinb0_3 i)).WholeWords (EltTy.packing .f32)

variable [Facts₀]

abbrev win0_0 : Pipeline.Window sig grid0 :=
  Pipeline.Window.ofSpec (Memref.whole main_arg0) S16384x1.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v0) S16384x1.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16384x1 : Shape := ⟨2, ![16384, 1]⟩
abbrev S16384 : Shape := ⟨1, ![16384]⟩
abbrev S_ : Shape := ⟨0, ![]⟩
abbrev S1x16384 : Shape := ⟨2, ![1, 16384]⟩
abbrev S16384x16384 : Shape := ⟨2, ![16384, 16384]⟩

abbrev nBuf : Space → Nat
  | .hbm => 28
  | .vmem => 0
  | .smem => 0
  | _ => 0

abbrev bufTy : (tb : Table) → Fin (tcTables nBuf tb) → BufTy
  | .hbm, ⟨0, _⟩ => ⟨S16384x1, .f32⟩
  | .hbm, ⟨1, _⟩ => ⟨S16384, .f32⟩
  | .hbm, ⟨2, _⟩ => ⟨S16384, .f32⟩
  | .hbm, ⟨3, _⟩ => ⟨S16384x1, .f32⟩
  | .hbm, ⟨4, _⟩ => ⟨S16384x1, .f32⟩
  | .hbm, ⟨5, _⟩ => ⟨S_, .f32⟩
  | .hbm, ⟨6, _⟩ => ⟨S_, .f32⟩
  | .hbm, ⟨7, _⟩ => ⟨S1x16384, .f32⟩
  | .hbm, ⟨8, _⟩ => ⟨S16384x16384, .f32⟩
  | .hbm, ⟨9, _⟩ => ⟨S16384x16384, .f32⟩
  | .hbm, ⟨10, _⟩ => ⟨S16384x16384, .f32⟩
  | .hbm, ⟨11, _⟩ => ⟨S_, .f32⟩
  | .hbm, ⟨12, _⟩ => ⟨S16384x16384, .f32⟩
  | .hbm, ⟨13, _⟩ => ⟨S16384x16384, .i1⟩
  | .hbm, ⟨14, _⟩ => ⟨S16384x16384, .f32⟩
  | .hbm, ⟨15, _⟩ => ⟨S16384x1, .f32⟩
  | .hbm, ⟨16, _⟩ => ⟨S16384x16384, .f32⟩
  | .hbm, ⟨17, _⟩ => ⟨S16384x16384, .f32⟩
  | .hbm, ⟨18, _⟩ => ⟨S_, .f32⟩
  | .hbm, ⟨19, _⟩ => ⟨S16384, .f32⟩
  | .hbm, ⟨20, _⟩ => ⟨S16384, .f32⟩
  | .hbm, ⟨21, _⟩ => ⟨S16384x1, .f32⟩
  | .hbm, ⟨22, _⟩ => ⟨S16384x1, .f32⟩
  | .hbm, ⟨23, _⟩ => ⟨S16384x1, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | _, _ => ⟨S16384x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]

class Facts₀ : Prop where
  shapeCasts_S16384_S16384x1 : S16384.ShapeCasts S16384x1
  reducesTo_S16384x1_S_d0_1 : S16384x1.ReducesTo [0, 1] S_
  h_S_ : 0 < S_.numel
  transposes_S16384x1_S1x16384_1_0 : S16384x1.Transposes [1, 0] S1x16384
  bcast_S16384x1_S16384x16384_0_1 : S16384x1.BroadcastsInDim S16384x16384 (![0, 1] : Fin 2 → Fin S16384x16384.rank)
  bcast_S1x16384_S16384x16384_0_1 : S1x16384.BroadcastsInDim S16384x16384 (![0, 1] : Fin 2 → Fin S16384x16384.rank)
  bcast_S_S16384x16384 : S_.BroadcastsInDim S16384x16384 (![] : Fin 0 → Fin S16384x16384.rank)
  reducesTo_S16384x16384_S16384_d0 : S16384x16384.ReducesTo [0] S16384

variable [Facts₀]

class Facts : Prop extends Facts₀ where

variable [Facts]
-- ==== Proof.Spec.lean ====
/-
  The risk-set sums of the Cox partial likelihood as a function of the argument arrays, index by index,
  at the ideal instance: for subject j the sum over all subjects i of exp(log_risk i) times the indicator
  that subject i is still at risk when j has its event (time i - time j >= 0), the indicator being the
  comparison's bit converted to a float. Both programs compute exactly this sum, the kernel 128 columns
  at a time, the reference on the whole N x N matrix; nothing here depends on a program's text.
-/
import Idealize.ShloMosaic.Lib.ValueIdx
import Idealize.ShloMosaic.Lib.Pipeline.Value
import Idealize.ShloMosaic.PureOps.Ideal.Laws

noncomputable section

open scoped BigOperators

namespace Cert.CoxRisk

open Idealize.ShloMosaic Idealize.ShloMosaic.ValueIdx

/-- A column of N = 16384 floats. -/
abbrev Col : Shape := ⟨2, ![16384, 1]⟩
/-- A row of N floats. -/
abbrev Row : Shape := ⟨2, ![1, 16384]⟩
/-- A flat vector of N floats. -/
abbrev Flat : Shape := ⟨1, ![16384]⟩

/-- One entry of the weighted risk-set matrix: exp(r) times the converted bit of `a - b ≥ 0`. -/
def entry (r a b : Ideal .f32) : Ideal .f32 :=
  FloatOps.mulf (FloatOps.exp r)
    (FloatOps.uitofp .f32 (FloatOps.cmpf .oge (FloatOps.subf a b) (FloatOps.ofBits .f32 0x00000000#32)))

/-- The risk-set sum of subject `j`: over every subject `i`, exp(log_risk i) when time i ≥ time j. -/
def riskSum (lr : Col.Idx → Ideal .f32) (yt : Flat.Idx → Ideal .f32) (j : Fin 16384) : Ideal .f32 :=
  ∑ i : Fin 16384, entry (lr (ix2 i 0)) (yt (ix1 i)) (yt (ix1 j))

/-- The risk-set sums laid out as the kernel's output row [1, N]. -/
def riskRow (lr : Col.Idx → Ideal .f32) (yt : Flat.Idx → Ideal .f32) : Row.Idx → Ideal .f32 :=
  fun i => riskSum lr yt ⟨(i 1).val, idx2_lt1 i⟩

/-- The risk-set sums as the reference's flat vector [N]. -/
def riskFlat (lr : Col.Idx → Ideal .f32) (yt : Flat.Idx → Ideal .f32) : Flat.Idx → Ideal .f32 :=
  fun i => riskSum lr yt ⟨(i 0).val, (i 0).isLt⟩

/-- A widened and signed-converted comparison bit is the bit converted unsigned: both are 0 or 1. -/
theorem sitofp_setWidth_bit (b : BitVec 1) :
    (FloatOps.sitofp .f32 (b.setWidth 32) : Ideal .f32) = FloatOps.uitofp .f32 b := by
  show ((((b.setWidth 32).toInt : ℤ) : ℝ) : EReal) = (((b.toNat : ℕ) : ℝ) : EReal)
  have h : ∀ b : BitVec 1, (b.setWidth 32).toInt = (b.toNat : ℤ) := by decide
  rw [h b]
  norm_cast

end Cert.CoxRisk

end
-- ==== Proof.KernelBlock.lean ====
/-
  What one grid point of the kernel stores, read at a lane. The body loads the whole log_risk column, the
  whole time column and 128 entries of the time row, forms the [16384, 128] tile
  exp(log_risk i) * bit(time i - time (128 t + l) >= 0) and sums it down the sublanes: lane l of the stored
  row is the sum over i of the risk-set matrix's entries (i, 128 t + l). The bit is widened to a word and
  converted signed, which for one bit is the unsigned conversion the reference uses.
-/
import proofs.«124096_j48249662603872_1_alg».proof.Proof.Gen.KernelIdeal.Skeleton
import proofs.«124096_j48249662603872_1_alg».proof.Proof.Spec
import Idealize.ShloMosaic.Lib.ValueIdx
import Idealize.ShloMosaic.Lib.Pipeline.Value
import Idealize.ShloMosaic.PureOps.Ideal.Laws

noncomputable section

open scoped BigOperators

namespace Cert.KernelIdeal.RiskBlock

open Cert.KernelIdeal Cert.KernelIdeal.Gen Idealize.ShloMosaic Idealize.ShloMosaic.ValueIdx Cert.CoxRisk

/-- Entry (i, l) of the tile the body reduces: the risk-set matrix's entry for subject i and the lane's subject. -/
theorem tile_apply (x0 x1 : FVec Ideal S16384x1 .f32) (x2 : FVec Ideal S1x128 .f32) (i : Fin 16384) (l : Fin 128) :
    (mulf (broadcastTo S16384x128 (exp x0) broadcasts_S16384x1_S16384x128)
        (sitofp .f32 (extui 32 (cmpf .oge
          (subf (broadcastTo S16384x128 (shapeCast S16384x1 x1 shapeCasts_S16384x1_S16384x1) broadcasts_S16384x1_S16384x128)
            (broadcastTo S16384x128 (shapeCast S1x128 x2 shapeCasts_S1x128_S1x128) broadcasts_S1x128_S16384x128))
          (broadcast S16384x128 (Scalar.ofBits .f32 0x00000000#32))) natLt_1_32)) : FVec Ideal S16384x128 .f32) (ix2 i l)
      = entry (x0 (ix2 i 0)) (x1 (ix2 i 0)) (x2 (ix2 0 l)) := by
  rw [shapeCast_self, shapeCast_self]
  show FloatOps.mulf (broadcastTo S16384x128 (exp x0) broadcasts_S16384x1_S16384x128 (ix2 i l))
      (FloatOps.sitofp .f32 ((FloatOps.cmpf .oge
        (FloatOps.subf (broadcastTo S16384x128 x1 broadcasts_S16384x1_S16384x128 (ix2 i l))
          (broadcastTo S16384x128 x2 broadcasts_S1x128_S16384x128 (ix2 i l)))
        (Scalar.ofBits .f32 0x00000000#32)).setWidth 32)) = _
  rw [broadcastTo_apply (exp x0) broadcasts_S16384x1_S16384x128 (ix2 i l) (ix2 i 0)
        (fun a => by match a with | ⟨0, _⟩ => rfl | ⟨1, _⟩ => rfl),
    broadcastTo_apply x1 broadcasts_S16384x1_S16384x128 (ix2 i l) (ix2 i 0)
        (fun a => by match a with | ⟨0, _⟩ => rfl | ⟨1, _⟩ => rfl),
    broadcastTo_apply x2 broadcasts_S1x128_S16384x128 (ix2 i l) (ix2 0 l)
        (fun a => by match a with | ⟨0, _⟩ => rfl | ⟨1, _⟩ => rfl),
    sitofp_setWidth_bit]
  rfl

/-- Lane l of the row the body stores: the sum over every subject i of the tile's entry (i, l). -/
theorem pay_apply (x0 x1 : Vec Ideal S16384x1 .f32) (x2 : Vec Ideal S1x128 .f32) (l : Fin 128) :
    k0_pay1 (F := Ideal) x0 x1 x2 (ix2 (0 : Fin 1) l)
      = ∑ i : Fin 16384, entry (x0 (ix2 i 0)) (x1 (ix2 i 0)) (x2 (ix2 0 l)) := by
  unfold k0_pay1
  dsimp only
  rw [shapeCast_apply _ shapeCasts_S128_S1x128 (ix2 (0 : Fin 1) l) (ix1 l)
    (by rw [Shape.rowMajor_val_one, Shape.rowMajor_val_two]; show l.val = 0 * 128 + l.val; omega)]
  refine (Ideal.multiReduction_add_single _ 0x00000000#32 reduces_S16384x128_S128 (.inl rfl) rfl (ix1 l)).trans ?_
  refine Finset.sum_congr rfl fun i _ => ?_
  have e : reduces_S16384x128_S128.lift (ix1 l) i = ix2 i l :=
    funext fun a => Fin.ext (by match a with | ⟨0, _⟩ => rfl | ⟨1, _⟩ => rfl)
  rw [e]
  exact tile_apply x0 x1 x2 i l

end Cert.KernelIdeal.RiskBlock

end
-- ==== Proof.KernelArray.lean ====
/-
  The kernel's output row after the run. Grid point t stores the sums of the risk-set matrix's columns
  128 t … 128 t + 127 (the time column read through the host's reshape of the time vector to [N, 1], the
  128 times of the point through its reshape to [1, N]); the 128 blocks tile the row [1, N], so after
  the last write-back the row holds every risk-set sum.
-/
import proofs.«124096_j48249662603872_1_alg».proof.Proof.Gen.KernelIdeal.Frame
import proofs.«124096_j48249662603872_1_alg».proof.Proof.KernelBlock
import Idealize.ShloMosaic.Lib.StableHlo.Run

noncomputable section

open scoped BigOperators

namespace Cert.KernelIdeal.RiskValue

open Cert.KernelIdeal Cert.KernelIdeal.Gen Cert.KernelIdeal.RiskBlock Idealize.ShloMosaic Idealize.ShloMosaic.TcCoe
open Idealize.ShloMosaic.ValueIdx Idealize.SL.Sem Cert.CoxRisk
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The time column the region finds: entry (i, 0) is time i. -/
theorem V_col_apply (c : Dev nD) (k : S16384x1.Idx) :
    (V m c main_v0 : S16384x1.Idx → Ideal .f32) k = m ((c : Thread nD τ).loc main_arg1) (ix1 ⟨(k 0).val, idx2_lt0 k⟩) := by
  have e : (V m c main_v0 : S16384x1.Idx → Ideal .f32)
      = shapeCast S16384x1 (m ((c : Thread nD τ).loc main_arg1)) shapeCasts_S16384_S16384x1 := by
    show StableHlo.after hostOps0 (fun b => m (c, b)) (Proc.devRef .tc main_v0) = _
    after_results
    rfl
  rw [e]
  refine shapeCast_apply _ shapeCasts_S16384_S16384x1 k _ ?_
  rw [Shape.rowMajor_val_one, Shape.rowMajor_val_two]
  have h1 : (k 1).val < 1 := idx2_lt1 k
  show (k 0).val = (k 0).val * 1 + (k 1).val
  omega

/-- The time row the region finds: entry (0, j) is time j. -/
theorem V_row_apply (c : Dev nD) (k : S1x16384.Idx) :
    (V m c main_v1 : S1x16384.Idx → Ideal .f32) k = m ((c : Thread nD τ).loc main_arg1) (ix1 ⟨(k 1).val, idx2_lt1 k⟩) := by
  have e : (V m c main_v1 : S1x16384.Idx → Ideal .f32)
      = shapeCast S1x16384 (m ((c : Thread nD τ).loc main_arg1)) shapeCasts_S16384_S1x16384 := by
    show StableHlo.after hostOps0 (fun b => m (c, b)) (Proc.devRef .tc main_v1) = _
    after_results
    rfl
  rw [e]
  refine shapeCast_apply _ shapeCasts_S16384_S1x16384 k _ ?_
  rw [Shape.rowMajor_val_one, Shape.rowMajor_val_two]
  have h0 : (k 0).val < 1 := idx2_lt0 k
  show (k 1).val = (k 0).val * 16384 + (k 1).val
  omega

/-- The printed index maps over the grid: the two columns stay at block (0, 0), the time row and the output
    row move to block (0, t). -/
theorem idx_facts : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = t.val
    ∧ win0_3.index t (0 : Fin 2) = 0 ∧ win0_3.index t (1 : Fin 2) = t.val :=
  (by decide +kernel : ∀ t : Fin grid0.N, _)

/-- Every block of the output row is some point's. -/
theorem idx_onto : ∀ q : Fin 128, ∃ t : Fin cfg0.N, win0_3.index t = ![0, q.val] :=
  (by decide +kernel : ∀ q : Fin 128, ∃ t : Fin grid0.N, win0_3.index t = ![0, q.val])

/-- The body's stored row from blocks that read the arguments: entry y is the risk-set sum of the subject the
    lane's time belongs to. -/
theorem pay_eq_riskRow (x0 x1 : Vec Ideal S16384x1 .f32) (x2 : Vec Ideal S1x128 .f32)
    (lr : S16384x1.Idx → Ideal .f32) (yt : S16384.Idx → Ideal .f32) (y : S1x128.Idx) (k : S1x16384.Idx)
    (h0 : ∀ i : Fin 16384, x0 (ix2 i 0) = lr (ix2 i 0))
    (h1 : ∀ i : Fin 16384, x1 (ix2 i 0) = yt (ix1 i))
    (h2 : x2 (ix2 0 (y 1)) = yt (ix1 (⟨(k 1).val, idx2_lt1 k⟩ : Fin 16384))) :
    k0_pay1 (F := Ideal) x0 x1 x2 y = riskRow lr yt k := by
  obtain ⟨p, l, rfl⟩ : ∃ (p : Fin 1) (l : Fin 128), y = ix2 p l := ⟨y 0, y 1, eq_ix2 y⟩
  obtain rfl : p = 0 := Subsingleton.elim _ _
  refine (pay_apply x0 x1 x2 l).trans ?_
  unfold riskRow riskSum
  refine Finset.sum_congr rfl fun i _ => ?_
  rw [h0 i, h1 i]
  exact congrArg _ h2

/-- What point t writes back is block t of the row of risk-set sums. -/
theorem flushed_eq (c : Dev nD) (t : Fin cfg0.N) :
    (dats m 0 c).flushed 3 t = ((cfg0.win 3).blk t).view.read (Elt Ideal)
      (riskRow (m ((c : Thread nD τ).loc main_arg0)) (m ((c : Thread nD τ).loc main_arg1))) := by
  show (cfg0.win 3).cut (grid0.coords t) ((dats m 0 c).after 3 t) = _
  rw [after0_3]
  unfold out0_3
  rw [View.canon_unit_zero hz]
  simp only [View.ld_unit_zero (S := S16384x1) hz, View.ld_unit_zero (S := S1x128) hz]
  obtain ⟨e00, e01, e10, e11, e20, e21, e30, e31⟩ := idx_facts t
  funext y
  show k0_pay1 (F := Ideal) (iblk m c 0 t) (iblk m c 1 t) (iblk m c 2 t) y = _
  set_option maxRecDepth 200000 in
  show _ = riskRow (m ((c : Thread nD τ).loc main_arg0)) (m ((c : Thread nD τ).loc main_arg1)) (((cfg0.win 3).blk t).view.emb y)
  refine pay_eq_riskRow (iblk m c 0 t) (iblk m c 1 t) (iblk m c 2 t) _ _ y _ (fun i => ?_) (fun i => ?_) ?_
  · show V m c main_arg0 (((cfg0.win 0).blk t).view.emb (ix2 i 0)) = _
    rw [V_main_arg0]
    refine congrArg _ (funext fun a => Fin.ext ?_)
    match a with
    | ⟨0, _⟩ => show win0_0.index t (0 : Fin 2) * 16384 + 1 * i.val = i.val; omega
    | ⟨1, _⟩ => show win0_0.index t (1 : Fin 2) * 1 + 1 * 0 = 0; omega
  · show V m c main_v0 (((cfg0.win 1).blk t).view.emb (ix2 i 0)) = _
    rw [V_col_apply]
    refine congrArg _ (funext fun a => Fin.ext ?_)
    match a with
    | ⟨0, _⟩ => show win0_1.index t (0 : Fin 2) * 16384 + 1 * i.val = i.val; omega
  · show V m c main_v1 (((cfg0.win 2).blk t).view.emb (ix2 0 (y 1))) = _
    rw [V_row_apply]
    refine congrArg _ (funext fun a => Fin.ext ?_)
    match a with
    | ⟨0, _⟩ => show win0_2.index t (1 : Fin 2) * 128 + 1 * (y 1).val = win0_3.index t (1 : Fin 2) * 128 + 1 * (y 1).val; omega

/-- An index of the row is in point t's block iff each coordinate is in the block's range on its axis. -/
theorem mem_blk (t : Fin cfg0.N) (i : S1x16384.Idx) :
    i ∈ ((cfg0.win 3).blk t).view.set ↔ ∀ a : Fin 2, win0_3.index t a * S1x128.size a ≤ (i a).val ∧ (i a).val < win0_3.index t a * S1x128.size a + S1x128.size a := by
  show i ∈ ((View.whole main_v2).slice (win0_3.rect t)).set ↔ _
  rw [View.set_slice_whole, Rect.mem_set_unit]
  exact Iff.rfl

/-- The 128 blocks cover the row. -/
theorem cover (i : S1x16384.Idx) : ∃ t : Fin cfg0.N, (cfg0.win 3).flush t = true ∧ i ∈ ((cfg0.win 3).blk t).view.set := by
  have hi0 : (i 0).val < 1 := idx2_lt0 i
  have hi1 : (i 1).val < 16384 := idx2_lt1 i
  obtain ⟨t, ht⟩ := idx_onto ⟨(i 1).val / 128, by omega⟩
  have q0 : win0_3.index t (0 : Fin 2) = 0 := congrFun ht 0
  have q1 : win0_3.index t (1 : Fin 2) = (i 1).val / 128 := congrFun ht 1
  refine ⟨t, flush0_3 t, ?_⟩
  rw [mem_blk]
  intro a
  match a with
  | ⟨0, _⟩ => show win0_3.index t (0 : Fin 2) * 1 ≤ (i 0).val ∧ (i 0).val < win0_3.index t (0 : Fin 2) * 1 + 1; omega
  | ⟨1, _⟩ => show win0_3.index t (1 : Fin 2) * 128 ≤ (i 1).val ∧ (i 1).val < win0_3.index t (1 : Fin 2) * 128 + 128; omega

/-- The output row after the run: every risk-set sum. -/
theorem final (c : Dev nD) : (dats m 0 c).arrAt 3 cfg0.N
    = riskRow (m ((c : Thread nD τ).loc main_arg0)) (m ((c : Thread nD τ).loc main_arg1)) :=
  (dats m 0 c).arrAt_eq_of_cover 3 _ (fun t _ => flushed_eq m c t) cover

end Cert.KernelIdeal.RiskValue

end
-- ==== Proof.Loss.lean ====
/-
  The loss from the risk-set sums: with s_i the logarithm of subject i's risk-set sum, the negative log
  partial likelihood is -(sum over i of (log_risk i - s_i) * status i) / (sum over i of status i). Both
  programs end with exactly these host operations; they differ only in where the logarithm is taken (the
  kernel's program reshapes the row of sums to a column and then takes logarithms, the reference takes
  logarithms of the flat vector and then reshapes), which is the same column.
-/
import proofs.«124096_j48249662603872_1_alg».proof.Proof.Spec

noncomputable section

open scoped BigOperators

namespace Cert.CoxRisk

open Idealize.ShloMosaic Idealize.ShloMosaic.ValueIdx

/-- The scalar shape. -/
abbrev Scal : Shape := ⟨0, ![]⟩

/-- The logarithms of the risk-set sums as a column [N, 1]. -/
def logRiskCol (lr : Col.Idx → Ideal .f32) (yt : Flat.Idx → Ideal .f32) : Col.Idx → Ideal .f32 :=
  fun p => FloatOps.hostUnary .log (riskSum lr yt ⟨(p 0).val, idx2_lt0 p⟩)

/-- The host operations both programs end with, from the log_risk column, the column `s` of logarithms of the
    risk-set sums and the flat status vector. -/
def loss (hc : Flat.ShapeCasts Col) (hr : Col.ReducesTo [0, 1] Scal) (h0 : 0 < Scal.numel)
    (lr s : FVec Ideal Col .f32) (ys : FVec Ideal Flat .f32) : FVec Ideal Scal .f32 :=
  Host.divf
    (Host.negf (Host.reduceAdd (mulf (subf lr s) (shapeCast Col ys hc)) (constant (F := Ideal) Scal .f32 0x00000000#32) hr h0))
    (Host.reduceAdd (shapeCast Col ys hc) (constant (F := Ideal) Scal .f32 0x00000000#32) hr h0)

/-- The kernel's program: the row of sums reshaped to a column, then the logarithm. -/
theorem log_reshape_row (lr : Col.Idx → Ideal .f32) (yt : Flat.Idx → Ideal .f32) (h : Row.ShapeCasts Col) :
    (Host.log (shapeCast Col (riskRow lr yt) h) : FVec Ideal Col .f32) = logRiskCol lr yt := by
  funext p
  show FloatOps.hostUnary .log (shapeCast Col (riskRow lr yt) h p) = _
  rw [shapeCast_apply (riskRow lr yt) h p (ix2 (0 : Fin 1) (⟨(p 0).val, idx2_lt0 p⟩ : Fin 16384))
    (by rw [Shape.rowMajor_val_two, Shape.rowMajor_val_two]
        have h1 : (p 1).val < 1 := idx2_lt1 p
        show 0 * 16384 + (p 0).val = (p 0).val * 1 + (p 1).val
        omega)]
  rfl

/-- The reference: the logarithm of the flat vector of sums, then the reshape to a column. -/
theorem reshape_log_flat (lr : Col.Idx → Ideal .f32) (yt : Flat.Idx → Ideal .f32) (h : Flat.ShapeCasts Col) :
    (shapeCast Col (Host.log (riskFlat lr yt) : FVec Ideal Flat .f32) h : FVec Ideal Col .f32) = logRiskCol lr yt := by
  funext p
  rw [shapeCast_apply _ h p (ix1 (⟨(p 0).val, idx2_lt0 p⟩ : Fin 16384))
    (by rw [Shape.rowMajor_val_one, Shape.rowMajor_val_two]
        have h1 : (p 1).val < 1 := idx2_lt1 p
        show (p 0).val = (p 0).val * 1 + (p 1).val
        omega)]
  rfl

end Cert.CoxRisk

end
-- ==== Proof.KernelRun.lean ====
/-
  The kernel program's result. After the region the host reshapes the row of risk-set sums to a column,
  takes logarithms and forms the loss with the log_risk column and the status vector; the region leaves
  log_risk and status as launched and the output row at the risk-set sums, so the result is the loss of
  the logarithms of the risk-set sums.
-/
import proofs.«124096_j48249662603872_1_alg».proof.Proof.KernelArray
import proofs.«124096_j48249662603872_1_alg».proof.Proof.Loss

noncomputable section

namespace Cert.KernelIdeal.RiskValue

open Cert.KernelIdeal Cert.KernelIdeal.Gen Idealize.ShloMosaic Idealize.ShloMosaic.TcCoe
open Idealize.ShloMosaic.ValueIdx Idealize.SL.Sem Cert.CoxRisk
open Idealize.ShloMosaic.Pipeline (Dat)

variable (m : (ℓ : Loc nD τ sig) → Buf (Elt Ideal) ℓ) (ρ : Dev nD → PrngReg)

/-- What the lines after the region find in the output row: the risk-set sums. -/
theorem tail_row (c : Dev nD) :
    Pipeline.withArrays (cfgs 0).spec c (V0 m c) (fun w => (dats m 0 c).arrAt w (cfgs 0).N) (Proc.devRef .tc main_v2)
      = riskRow (m ((c : Thread nD τ).loc main_arg0)) (m ((c : Thread nD τ).loc main_arg1)) :=
  (Pipeline.withArrays_arr spec0 launch0.win.arr_inj c _ _ 3).trans (final m c)

/-- They find log_risk as launched (the region only reads it), -/
theorem tail_arg0 (c : Dev nD) :
    Pipeline.withArrays (cfgs 0).spec c (V0 m c) (fun w => (dats m 0 c).arrAt w (cfgs 0).N) (Proc.devRef .tc main_arg0)
      = m ((c : Thread nD τ).loc main_arg0) :=
  (Pipeline.withArrays_arr spec0 launch0.win.arr_inj c _ _ 0).trans
    (((dats m 0 c).arrAt_in 0 rfl _).trans ((A_eq m c 0).trans (V_main_arg0 m c)))

/-- and status as launched (no window stages it). -/
theorem tail_arg2 (c : Dev nD) :
    Pipeline.withArrays (cfgs 0).spec c (V0 m c) (fun w => (dats m 0 c).arrAt w (cfgs 0).N) (Proc.devRef .tc main_arg2)
      = m ((c : Thread nD τ).loc main_arg2) :=
  (Pipeline.withArrays_of_ne _ c (V0 m c) _ main_arg2 (by exact (by decide : ∀ w, Pipeline.arrRef spec0 w ≠ main_arg2))).trans
    (V_main_arg2 m c)

/-- The program's result buffer after the run. -/
theorem result_eq (c : Dev nD) :
    Pipeline.afterTail₀ cfgs (dats m) 0 (V0 m) [hostOps1] c main_v11
      = loss shapeCasts_S16384_S16384x1 reducesTo_S16384x1_S_d0_1 h_S_ (m ((c : Thread nD τ).loc main_arg0))
          (logRiskCol (m ((c : Thread nD τ).loc main_arg0)) (m ((c : Thread nD τ).loc main_arg1)))
          (m ((c : Thread nD τ).loc main_arg2)) := by
  unfold Pipeline.afterTail₀
  show StableHlo.after hostOps1 _ (Proc.devRef .tc main_v11) = _
  after_results
  rw [tail_row m c, tail_arg0 m c, tail_arg2 m c,
    ← log_reshape_row (m ((c : Thread nD τ).loc main_arg0)) (m ((c : Thread nD τ).loc main_arg1)) shapeCasts_S1x16384_S16384x1]
  rfl

/-- The run with the result named: every weakly fair execution of the program ends with the result buffer at
    the loss of the logarithms of the risk-set sums and the three arguments as launched. -/
theorem run : θ_run defs (onTc (τ := τ) (main (F := Ideal))) ⟨m, fun _ => 0, ρ⟩ fun r => ∀ c : Dev nD,
      r.2.mem ((c.tc : Thread nD τ).loc main_v11)
        = loss shapeCasts_S16384_S16384x1 reducesTo_S16384x1_S_d0_1 h_S_ (m ((c : Thread nD τ).loc main_arg0))
            (logRiskCol (m ((c : Thread nD τ).loc main_arg0)) (m ((c : Thread nD τ).loc main_arg1)))
            (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v11 (Pipeline.mem_restRefs_of main_v11 (by decide) (by decide))).trans (result_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.RiskValue

end
-- ==== Proof.RefValue.lean ====
/-
  The reference's result as the loss of the risk-set sums. Its [N, N] matrix has entry (i, j) equal to
  exp(log_risk i) times the converted bit of time i - time j >= 0 (the two times reach the entry through a
  reshape to a column, a transpose and two broadcasts), and the sum over its first axis from the zero initial
  value is the risk-set sum of subject j.
-/
import proofs.«124096_j48249662603872_1_alg».proof.Proof.Gen.ReferenceIdeal.Read
import proofs.«124096_j48249662603872_1_alg».proof.Proof.Loss

noncomputable section

open scoped BigOperators

namespace Cert.ReferenceIdeal.RiskValue

open Cert.ReferenceIdeal Cert.ReferenceIdeal.Gen Cert.ReferenceIdeal.Read Idealize.ShloMosaic Idealize.ShloMosaic.ValueIdx Cert.CoxRisk

/-- The reference's vector of column sums is the vector of risk-set sums. -/
theorem sums_eq (x0 : FVec Ideal S16384x1 .f32) (x1 : FVec Ideal S16384 .f32) :
    val_main_v13 (F := Ideal) x0 x1 = riskFlat x0 x1 := by
  funext i
  rw [val_main_v13_apply]
  have hz : (val_main_cst_1 (F := Ideal)) (Shape.Idx.first h_S_) = 0 := Ideal.ofBits_zero_f32
  rw [hz, zero_add]
  unfold riskFlat riskSum
  refine Finset.sum_congr rfl fun k _ => ?_
  rw [val_main_v12_apply, val_main_v11_apply, val_main_v10_apply, val_main_v9_apply, val_main_v8_apply,
    val_main_v6_apply, val_main_v4_apply, val_main_v5_apply, val_main_v3_apply, val_main_v0_apply,
    val_main_v0_apply, val_main_v7_apply, val_main_cst_0_apply]
  have e1 : idx_main_v11 (idx_main_v13 i k) = ix2 k 0 :=
    funext fun a => Fin.ext (by match a with | ⟨0, _⟩ => rfl | ⟨1, _⟩ => rfl)
  have e2 : idx_main_v0 (idx_main_v4 (idx_main_v13 i k)) = ix1 k :=
    funext fun a => Fin.ext (by match a with | ⟨0, _⟩ => show k.val * 1 + 0 = k.val; omega)
  have e3 : idx_main_v0 (idx_main_v3 (idx_main_v5 (idx_main_v13 i k))) = ix1 (⟨(i 0).val, (i 0).isLt⟩ : Fin 16384) :=
    funext fun a => Fin.ext (by match a with | ⟨0, _⟩ => show (i 0).val * 1 + 0 = (i 0).val; omega)
  rw [e1, e2, e3]
  rfl

/-- The reference's result: the loss of the logarithms of the risk-set sums. -/
theorem result_eq (x0 : FVec Ideal S16384x1 .f32) (x1 x2 : FVec Ideal S16384 .f32) :
    val_main_v20 (F := Ideal) x0 x1 x2
      = loss shapeCasts_S16384_S16384x1 reducesTo_S16384x1_S_d0_1 h_S_ x0 (logRiskCol x0 x1) x2 := by
  have h15 : val_main_v15 (F := Ideal) x0 x1 = logRiskCol x0 x1 := by
    unfold val_main_v15 val_main_v14
    rw [sums_eq]
    exact reshape_log_flat x0 x1 _
  show loss _ _ _ x0 (val_main_v15 (F := Ideal) x0 x1) x2 = _
  rw [h15]

end Cert.ReferenceIdeal.RiskValue

end
-- ==== Proof.lean ====
/-
  The Cox partial-likelihood loss: the Pallas kernel against its jnp reference, over the extended reals.

  Both programs compute, for every subject j, the risk-set sum S_j = sum over i of exp(log_risk i) * [time i >= time j]
  (the bracket is the float conversion of the comparison bit of time i - time j >= 0), and then the loss
  -(sum over i of (log_risk i - log S_i) * status i) / (sum over i of status i). The kernel forms the sums 128 columns
  of the risk-set matrix at a time, one grid point per block of the output row; the reference forms the whole
  N x N matrix and sums its first axis. At the ideal instance a sum is a sum whatever its tiling, the kernel's
  signed conversion of the widened bit is the reference's unsigned conversion of the bit, and the two programs take the
  logarithm before or after a reshape of the same data: the two results are one function of the arguments, and no
  law used needs the inputs finite. The ideal pass rewrote nothing, so the idealization claim is trivial; the
  kernel programs' frames are the generated ones and the reference's is its generated run.
-/
import proofs.«124096_j48249662603872_1_alg».proof.Defs
import proofs.«124096_j48249662603872_1_alg».proof.Proof.Gen.Kernel
import proofs.«124096_j48249662603872_1_alg».proof.Proof.Gen.Kernel.Skeleton
import proofs.«124096_j48249662603872_1_alg».proof.Proof.Gen.Kernel.Launch
import proofs.«124096_j48249662603872_1_alg».proof.Proof.Gen.Kernel.Points
import proofs.«124096_j48249662603872_1_alg».proof.Proof.Gen.Kernel.Frame
import proofs.«124096_j48249662603872_1_alg».proof.Proof.Gen.KernelIdeal
import proofs.«124096_j48249662603872_1_alg».proof.Proof.Gen.KernelIdeal.Skeleton
import proofs.«124096_j48249662603872_1_alg».proof.Proof.Gen.KernelIdeal.Launch
import proofs.«124096_j48249662603872_1_alg».proof.Proof.Gen.KernelIdeal.Points
import proofs.«124096_j48249662603872_1_alg».proof.Proof.Gen.KernelIdeal.Frame
import proofs.«124096_j48249662603872_1_alg».proof.Proof.Gen.ReferenceIdeal
import proofs.«124096_j48249662603872_1_alg».proof.Proof.Gen.Pre_finite_inputs
import proofs.«124096_j48249662603872_1_alg».proof.Proof.Gen.ReferenceIdeal.Run
import proofs.«124096_j48249662603872_1_alg».proof.Proof.Gen.ReferenceIdeal.Read
import proofs.«124096_j48249662603872_1_alg».proof.Proof.KernelRun
import proofs.«124096_j48249662603872_1_alg».proof.Proof.RefValue
import Idealize.ShloMosaic.Adequacy
import Idealize.ShloMosaic.Init

noncomputable section

namespace Cert.Proof

open Idealize.ShloMosaic Idealize.ShloMosaic.TcCoe Idealize.SL.Sem Cert.CoxRisk

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From arguments that agree both programs end at the loss of the logarithms of the risk-set sums. -/
theorem algebraic : Cert.algebraic_KernelIdeal_ReferenceIdeal := by
  intro m ρ m' ρ' _ hagree
  refine ⟨_, Cert.KernelIdeal.RiskValue.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v20_eq
    (m' ((c.tc : Thread Cert.ReferenceIdeal.nD Cert.ReferenceIdeal.τ).loc Cert.ReferenceIdeal.main_arg0))
    (m' ((c.tc : Thread Cert.ReferenceIdeal.nD Cert.ReferenceIdeal.τ).loc Cert.ReferenceIdeal.main_arg1))
    (m' ((c.tc : Thread Cert.ReferenceIdeal.nD Cert.ReferenceIdeal.τ).loc Cert.ReferenceIdeal.main_arg2))).trans ?_
  rw [Cert.ReferenceIdeal.RiskValue.result_eq, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
